-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S256x3072 : Shape := ⟨2, ![256, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S256x3072 : S_.BroadcastsInDim S256x3072 (![] : Fin 0 → Fin S256x3072.rank)
  reducesTo_S256x3072_S_d0_1 : S256x3072.ReducesTo [0, 1] S_

variable [Facts]

def fn {F : FTy → Type} [FloatOps F] (main_arg0 : FVec F S8192x3072 .f32) (main_arg1 : FVec F S256x3072 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S256x3072 .f32 := Host.absf main_arg1
  let main_cst_0 : FVec F S_ .f32 := constant S_ .f32 0x7F800000#32
  let main_v5 : FVec F S256x3072 .f32 := broadcastInDim S256x3072 ![] bcast_S_S256x3072 main_cst_0
  let main_v6 : IVec S256x3072 1 := cmpf .olt main_v4 main_v5
  let main_c_1 : IVec S_ 1 := constantI S_ 1 1#1
  let main_v7 : IVec S_ 1 := (fun x v => Host.reduce IntOp.andi x v reducesTo_S256x3072_S_d0_1 h_S_) main_v6 main_c_1
  let main_v8 : IVec S_ 1 := andi main_v3 main_v7
  main_v8
-- ==== Kernel.lean ====
abbrev S8192x3072 : Shape := ⟨2, ![8192, 3072]⟩
abbrev S256x3072 : Shape := ⟨2, ![256, 3072]⟩
abbrev S8192x256 : Shape := ⟨2, ![8192, 256]⟩
abbrev S512x3072 : Shape := ⟨2, ![512, 3072]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩
abbrev S1x256 : Shape := ⟨2, ![1, 256]⟩
abbrev S3072x256 : Shape := ⟨2, ![3072, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .f32⟩
  | .hbm, ⟨1, _⟩ => ⟨S256x3072, .f32⟩
  | .hbm, ⟨2, _⟩ => ⟨S8192x256, .f32⟩
  | .local _ .vmem, ⟨0, _⟩ => ⟨S512x3072, .f32⟩
  | .local _ .vmem, ⟨1, _⟩ => ⟨S512x3072, .f32⟩
  | .local _ .vmem, ⟨2, _⟩ => ⟨S256x3072, .f32⟩
  | .local _ .vmem, ⟨3, _⟩ => ⟨S512x256, .f32⟩
  | .local _ .vmem, ⟨4, _⟩ => ⟨S512x256, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x3072_S512x3072_0_0 : ∀ a, (![0, 0] : Fin 2 → Nat) a + S512x3072.size a ≤ S512x3072.size a
  h_S512x3072 : 0 < S512x3072.numel
  inb_S256x3072_S256x3072_0_0 : ∀ a, (![0, 0] : Fin 2 → Nat) a + S256x3072.size a ≤ S256x3072.size a
  h_S256x3072 : 0 < S256x3072.numel
  reduces_S512x3072_S512 : S512x3072.Reduces [1] S512
  shapeCasts_S512_S512x1 : S512.ShapeCasts S512x1
  reduces_S256x3072_S256 : S256x3072.Reduces [1] S256
  shapeCasts_S256_S256x1 : S256.ShapeCasts S256x1
  shapeCasts_S256x1_S1x256 : S256x1.ShapeCasts S1x256
  bitsLt_bf16_f32 : FTy.bits .bf16 < FTy.bits .f32
  transposes_S256x3072_p1_0_S3072x256 : S256x3072.Transposes [1, 0] S3072x256
  broadcasts_S512x1_S512x256 : S512x1.Broadcasts S512x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x3072_S3072x256_S512x256_1_0_0_1_n_n_wf : DotDims.WF S512x3072 S3072x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S256x3072.size a
  hwx0_1 : ∀ i : grid0.Coords, EltTy.bits .f32 = 32 ∨ (Rect.block (s := S256x3072) S256x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)

variable [Facts₀]

def dot_S512x3072_S3072x256_S512x256_1_0_0_1_n_n : DotDims S512x3072 S3072x256 S512x256 where
  lhsContracting := [1]
  rhsContracting := [0]
  lhsNonContracting := [0]
  rhsNonContracting := [1]
  lhsBatch := []
  rhsBatch := []
  wf := dot_S512x3072_S3072x256_S512x256_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S256x3072 : Shape := ⟨2, ![256, 3072]⟩
abbrev S_ : Shape := ⟨0, ![]⟩
abbrev S8192 : Shape := ⟨1, ![8192]⟩
abbrev S8192x1 : Shape := ⟨2, ![8192, 1]⟩
abbrev S256 : Shape := ⟨1, ![256]⟩
abbrev S8192x256 : Shape := ⟨2, ![8192, 256]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S256x3072, .f32⟩
  | .hbm, ⟨2, _⟩ => ⟨S8192x3072, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S256x3072, .f32⟩
  | .hbm, ⟨7, _⟩ => ⟨S_, .f32⟩
  | .hbm, ⟨8, _⟩ => ⟨S256, .f32⟩
  | .hbm, ⟨9, _⟩ => ⟨S8192x256, .f32⟩
  | .hbm, ⟨10, _⟩ => ⟨S1x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x3072_S8192_d1 : S8192x3072.ReducesTo [1] S8192
  h_S_ : 0 < S_.numel
  bcast_S8192_S8192x1_0 : S8192.BroadcastsInDim S8192x1 (![0] : Fin 1 → Fin S8192x1.rank)
  reducesTo_S256x3072_S256_d1 : S256x3072.ReducesTo [1] S256
  bcast_S256_S1x256_1 : S256.BroadcastsInDim S1x256 (![1] : Fin 1 → Fin S1x256.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x3072_S256x3072_S8192x256_1_1_0_0_n_n_wf : DotDims.WF S8192x3072 S256x3072 S8192x256 [1] [1] [0] [0] [] []

variable [Facts₀]

def dot_S8192x3072_S256x3072_S8192x256_1_1_0_0_n_n : DotDims S8192x3072 S256x3072 S8192x256 where
  lhsContracting := [1]
  rhsContracting := [1]
  lhsNonContracting := [0]
  rhsNonContracting := [0]
  lhsBatch := []
  rhsBatch := []
  wf := dot_S8192x3072_S256x3072_S8192x256_1_1_0_0_n_n_wf

class Facts : Prop extends Facts₀ where

variable [Facts]
-- ==== Proof.Spec.lean ====
/-
  The distance table: for samples x (one per row of an [8192, 3072] array) and centers c (one per row of a
  [256, 3072] array), entry (b, k) of the result is

      sqrt (max (|x_b|² + |c_k|² - 2 · ⟨x_b, c_k⟩, ε))

  over the extended reals, with |u|² the sum of the squares of a row's entries, ⟨u, v⟩ the sum of the products of two
  rows' entries, 2 and ε the two single-precision words both programs carry (read at their exact binary values). Both
  programs compute this entry by entry; they differ only in how the three sums are laid out and tiled.
-/
import Idealize.ShloMosaic.PureOps.Ideal
import Idealize.ShloMosaic.Lib.ValueIdx

noncomputable section

namespace Cert.PairDist

open Idealize.ShloMosaic Idealize.ShloMosaic.ValueIdx

/-- The distance of two rows u and v of the same length from their entries: the square root of
    |u|² + |v|² - 2 ⟨u, v⟩, floored at ε before the root. -/
def pointDist {n : ℕ} (u v : Fin n → EReal) : EReal :=
  Ideal.sqrt (max (((∑ d : Fin n, u d * u d) + (∑ d : Fin n, v d * v d))
    - Ideal.ofBits .f32 0x40000000#32 * (∑ d : Fin n, u d * v d)) (Ideal.ofBits .f32 0x2B8CBCCC#32))

/-- The whole table: entry (b, k) is the distance of sample row b from center row k. -/
def distTable (x : (⟨2, ![8192, 3072]⟩ : Shape).Idx → EReal) (c : (⟨2, ![256, 3072]⟩ : Shape).Idx → EReal) :
    (⟨2, ![8192, 256]⟩ : Shape).Idx → EReal :=
  fun i => pointDist (fun d : Fin 3072 => x (ix2 (i 0) d)) (fun d : Fin 3072 => c (ix2 (i 1) d))

end Cert.PairDist

end
-- ==== Proof.RefIsDist.lean ====
/-
  The reference computes the distance table: its last stage, read one operation at a time, is at entry (b, k) the
  square root of max (|x_b|² + |c_k|² - 2 ⟨x_b, c_k⟩, ε), the two squared norms each a row sum started from the zero
  word (so zero is added to them), the inner product the contraction of the two arrays along their second axes.
-/
import proofs.«167540_j44023414784041_1_alg».proof.Proof.Gen.ReferenceIdeal.Read
import proofs.«167540_j44023414784041_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.PairDist

/-- The reference's result, as a function of its two arguments, is the distance table. -/
theorem result_eq_dist (x0 : (⟨S8192x3072, .f32⟩ : BufTy).Contents (Elt Ideal)) (x1 : (⟨S256x3072, .f32⟩ : BufTy).Contents (Elt Ideal)) :
    val_main_v15 (F := Ideal) x0 x1 = distTable x0 x1 := by
  funext i
  obtain ⟨b, k, rfl⟩ : ∃ (b : Fin 8192) (k : Fin 256), i = ix2 b k := ⟨i 0, i 1, eq_ix2 i⟩
  -- the rows the three sums run over: row b of the samples, row k of the centers
  have e0 : ∀ d : Fin 3072, idx_main_v1 (idx_main_v2 (idx_main_v7 (ix2 b k))) d = ix2 b d := fun d =>
    funext fun a => Fin.ext (by match a with | ⟨0, _⟩ => rfl | ⟨1, _⟩ => rfl)
  have e1 : ∀ d : Fin 3072, idx_main_v4 (idx_main_v6 (idx_main_v8 (ix2 b k))) d = ix2 k d := fun d =>
    funext fun a => Fin.ext (by match a with | ⟨0, _⟩ => rfl | ⟨1, _⟩ => rfl)
  have el : ∀ d : Fin 3072, lidx_main_v5 (ix2 b k) d = ix2 b d := fun d =>
    funext fun a => Fin.ext (by match a with | ⟨0, _⟩ => rfl | ⟨1, _⟩ => rfl)
  have er : ∀ d : Fin 3072, ridx_main_v5 (ix2 b k) d = ix2 k d := fun d =>
    funext fun a => Fin.ext (by match a with | ⟨0, _⟩ => rfl | ⟨1, _⟩ => rfl)
  rw [val_main_v15_apply, val_main_v14_apply, val_main_v12_apply, val_main_v9_apply, val_main_v7_apply, val_main_v2_apply,
    val_main_v1_apply, val_main_v8_apply, val_main_v6_apply, val_main_v4_apply, val_main_v11_apply, val_main_v10_apply,
    val_main_v5_apply, val_main_v13_apply]
  simp only [val_main_v0_apply, val_main_v3_apply, val_main_cst_apply, val_main_cst_0_apply, val_main_cst_1_apply,
    val_main_cst_2_apply, e0, e1, el, er, Ideal.hostUnary_sqrt_def, Ideal.maximumf_def, Ideal.subf_def, Ideal.addf_def,
    Ideal.mulf_def, Ideal.ofBits_def, Ideal.ofBits_zero_f32, zero_add]
  rfl

end Cert.ReferenceIdeal.RefValue

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.BodyValue.lean ====
/-
  One grid point's block of the kernel, read at an entry. The body loads a [512, 3072] block of samples and the whole
  [256, 3072] array of centers and stores sqrt (max (N + C - 2 · X, ε)), where at entry (p, q): N is the squared norm of
  sample row p (a row sum, kept as a column and broadcast along the second axis), C the squared norm of center row q
  (a row sum, kept as a column, re-laid as a row and broadcast along the first axis), and X the matrix product of the
  samples with the transposed centers into the zero accumulator, that is the inner product of sample row p and center
  row q. The narrowing of the product's operands is the identity over the extended reals. So the stored entry (p, q) is
  the distance of those two rows.
-/
import proofs.«167540_j44023414784041_1_alg».proof.Proof.Gen.KernelIdeal.Skeleton
import proofs.«167540_j44023414784041_1_alg».proof.Proof.Spec
import proofs.«167540_j44023414784041_1_alg».proof.Proof.LibPlainMatmul
import proofs.«167540_j44023414784041_1_alg».proof.Proof.LibRowColumn

noncomputable section

namespace Cert.KernelIdeal.Body

open Cert.KernelIdeal Cert.KernelIdeal.Gen Idealize.ShloMosaic Idealize.ShloMosaic.ValueIdx
open Cert.PairDist

variable {F : FTy → Type} [FloatOps F]

/-- The samples' squared norms, one per row, spread over the block's columns. -/
def sampleNorms (x0 : Vec F S512x3072 .f32) : FVec F S512x256 .f32 :=
  broadcastTo S512x256 (shapeCast S512x1 (multiReduction .add [1] S512 (mulf x0 x0) 0x00000000#32 reduces_S512x3072_S512 (.inl rfl) rfl)
    shapeCasts_S512_S512x1) broadcasts_S512x1_S512x256

/-- The centers' squared norms, one per column, spread over the block's rows. -/
def centerNorms (x1 : Vec F S256x3072 .f32) : FVec F S512x256 .f32 :=
  broadcastTo S512x256 (shapeCast S1x256 (shapeCast S256x1 (multiReduction .add [1] S256 (mulf x1 x1) 0x00000000#32 reduces_S256x3072_S256 (.inl rfl) rfl)
    shapeCasts_S256_S256x1) shapeCasts_S256x1_S1x256) broadcasts_S1x256_S512x256

/-- The inner products of the block's sample rows with the center rows: samples times transposed centers. -/
def crossProducts (x0 : Vec F S512x3072 .f32) (x1 : Vec F S256x3072 .f32) : FVec F S512x256 .f32 :=
  matmul dot_S512x3072_S3072x256_S512x256_1_0_0_1_n_n none (truncf .bf16 x0 bitsLt_bf16_f32)
    (transpose S3072x256 [1, 0] (truncf .bf16 x1 bitsLt_bf16_f32) transposes_S256x3072_p1_0_S3072x256) (constant S512x256 .f32 0x00000000#32)

/-- The body's stored value is the root of the floored combination of those three. -/
theorem pay_eq (x0 : Vec F S512x3072 .f32) (x1 : Vec F S256x3072 .f32) :
    k0_pay1 x0 x1 = sqrt (maximumf (subf (addf (sampleNorms x0) (centerNorms x1))
      (mulf (broadcast S512x256 (Scalar.ofBits .f32 0x40000000#32)) (crossProducts x0 x1)))
      (broadcast S512x256 (Scalar.ofBits .f32 0x2B8CBCCC#32))) := rfl

/-- Entry (p, q) of the samples' norms is the squared norm of sample row p. -/
theorem sampleNorms_apply (x0 : Vec Ideal S512x3072 .f32) (p : Fin 512) (q : Fin 256) :
    sampleNorms (F := Ideal) x0 (ix2 p q) = ∑ d : Fin 3072, x0 (ix2 p d) * x0 (ix2 p d) :=
  (RowColumn.broadcastTo_a1_ab_apply _ broadcasts_S512x1_S512x256 p q).trans
    ((RowColumn.shapeCast_a_a1_apply _ shapeCasts_S512_S512x1 p 0).trans
      (RowColumn.rowSum_apply (mulf x0 x0) 0x00000000#32 reduces_S512x3072_S512 (.inl rfl) rfl p))

/-- Entry (p, q) of the centers' norms is the squared norm of center row q. -/
theorem centerNorms_apply (x1 : Vec Ideal S256x3072 .f32) (p : Fin 512) (q : Fin 256) :
    centerNorms (F := Ideal) x1 (ix2 p q) = ∑ d : Fin 3072, x1 (ix2 q d) * x1 (ix2 q d) :=
  (broadcastTo_1b_ab_apply _ broadcasts_S1x256_S512x256 p q).trans
    ((RowColumn.shapeCast_a1_1a_apply _ shapeCasts_S256x1_S1x256 0 q).trans
      ((RowColumn.shapeCast_a_a1_apply _ shapeCasts_S256_S256x1 q 0).trans
        (RowColumn.rowSum_apply (mulf x1 x1) 0x00000000#32 reduces_S256x3072_S256 (.inl rfl) rfl q)))

/-- Entry (p, q) of the product is the inner product of sample row p and center row q. -/
theorem crossProducts_apply (x0 : Vec Ideal S512x3072 .f32) (x1 : Vec Ideal S256x3072 .f32) (p : Fin 512) (q : Fin 256) :
    crossProducts (F := Ideal) x0 x1 (ix2 p q) = ∑ d : Fin 3072, x0 (ix2 p d) * x1 (ix2 q d) :=
  (PlainMatmul.apply none (truncf (F := Ideal) .bf16 x0 bitsLt_bf16_f32)
      (transpose S3072x256 [1, 0] (truncf (F := Ideal) .bf16 x1 bitsLt_bf16_f32) transposes_S256x3072_p1_0_S3072x256) p q).trans
    (Finset.sum_congr rfl fun d _ => congrArg (x0 (ix2 p d) * ·)
      (transpose_ix2_apply (truncf (F := Ideal) .bf16 x1 bitsLt_bf16_f32) transposes_S256x3072_p1_0_S3072x256 d q))

/-- So the body's stored entry (p, q) is the distance of the block's sample row p from center row q. -/
theorem pay_apply (x0 : Vec Ideal S512x3072 .f32) (x1 : Vec Ideal S256x3072 .f32) (p : Fin 512) (q : Fin 256) :
    k0_pay1 (F := Ideal) x0 x1 (ix2 p q) = pointDist (fun d : Fin 3072 => x0 (ix2 p d)) (fun d : Fin 3072 => x1 (ix2 q d)) := by
  rw [pay_eq]
  show Ideal.sqrt (max ((sampleNorms (F := Ideal) x0 (ix2 p q) + centerNorms (F := Ideal) x1 (ix2 p q))
    - Ideal.ofBits .f32 0x40000000#32 * crossProducts (F := Ideal) x0 x1 (ix2 p q)) (Ideal.ofBits .f32 0x2B8CBCCC#32)) = _
  rw [sampleNorms_apply, centerNorms_apply, crossProducts_apply]
  rfl

end Cert.KernelIdeal.Body

end
-- ==== Proof.KernelValue.lean ====
/-
  From blocks to the whole table. The grid has 16 points; point t stages rows 512 t … 512 t + 511 of the samples, the
  whole array of centers, and writes back rows 512 t … 512 t + 511 of the result. What it writes back is the body's
  stored block, whose entry (p, q) is the distance of the staged sample row p — row 512 t + p of the samples — from
  center row q: exactly the rows 512 t … of the distance table. The 16 row blocks cover the result (row r lies in the
  block of point r / 512), so after the run the result array is the distance table of the two arguments.
-/
import proofs.«167540_j44023414784041_1_alg».proof.Proof.Gen.KernelIdeal.Value
import proofs.«167540_j44023414784041_1_alg».proof.Proof.BodyValue

noncomputable section

namespace Cert.KernelIdeal.Table

open Cert.KernelIdeal Cert.KernelIdeal.Gen Idealize.ShloMosaic Idealize.ShloMosaic.TcCoe Idealize.ShloMosaic.ValueIdx Idealize.SL.Sem
open Idealize.ShloMosaic.Pipeline (Dat)
open Cert.PairDist

variable (m : (ℓ : Loc nD τ sig) → Buf (Elt Ideal) ℓ) (ρ : Dev nD → PrngReg)

/-- The body's accesses start at the corner of their buffers. -/
theorem corner : (![0, 0] : Fin 2 → Nat) = fun _ => 0 := funext fun a => by fin_cases a <;> rfl

/-- The index maps over the grid: at point t the samples' block and the result's block are row block t, and the
    centers' block is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What point t writes back is block t of the distance table of the argument arrays. -/
theorem flushed_eq (c : Dev nD) (t : Fin cfg0.N) :
    (dats m 0 c).flushed 2 t = ((cfg0.win 2).blk t).view.read (Elt Ideal) (distTable (V m c main_arg0) (V m c main_arg1)) := by
  rw [Value.flushed2]
  unfold out0_2
  rw [View.canon_unit_zero corner]
  simp only [View.ld_unit_zero (S := S512x3072) corner, View.ld_unit_zero (S := S256x3072) corner]
  obtain ⟨e00, e01, e10, e11, e20, e21⟩ := block_indices t
  funext j
  obtain ⟨p, q, rfl⟩ : ∃ (p : Fin 512) (q : Fin 256), j = ix2 p q := ⟨j 0, j 1, eq_ix2 j⟩
  show k0_pay1 (F := Ideal) (iblk m c 0 t) (iblk m c 1 t) (ix2 p q)
    = distTable (V m c main_arg0) (V m c main_arg1) (((cfg0.win 2).blk t).view.emb (ix2 p q))
  refine (Body.pay_apply (iblk m c 0 t) (iblk m c 1 t) p q).trans ?_
  unfold distTable
  refine congrArg₂ pointDist (funext fun d => ?_) (funext fun d => ?_)
  · -- staged sample row p is row 512 t + p of the samples, the row of the result's entry
    show V m c main_arg0 (((cfg0.win 0).blk t).view.emb (ix2 p d))
      = V m c main_arg0 (ix2 ((((cfg0.win 2).blk t).view.emb (ix2 p q)) 0) d)
    refine congrArg (V m c main_arg0) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 3072 + 1 * d.val = d.val; omega
  · -- staged center row q is center row q, the column of the result's entry
    show V m c main_arg1 (((cfg0.win 1).blk t).view.emb (ix2 q d))
      = V m c main_arg1 (ix2 ((((cfg0.win 2).blk t).view.emb (ix2 p q)) 1) d)
    refine congrArg (V m c main_arg1) (funext fun a => Fin.ext ?_)
    match a with
    | ⟨0, _⟩ => show win0_1.index t (0 : Fin 2) * 256 + 1 * q.val = win0_2.index t (1 : Fin 2) * 256 + 1 * q.val; omega
    | ⟨1, _⟩ => show win0_1.index t (1 : Fin 2) * 3072 + 1 * d.val = d.val; omega

/-- An entry of the result lies in point t's block iff each coordinate lies in the block's range on its axis. -/
theorem mem_blk (t : Fin cfg0.N) (i : S8192x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v0).slice (win0_2.rect t)).set ↔ _
  rw [View.set_slice_whole, Rect.mem_set_unit]
  exact Iff.rfl

/-- Every entry of the result is written back by some point: row r by point r / 512. -/
theorem covered (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, e20, e21⟩ := block_indices t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 256 ≤ (i 1).val ∧ (i 1).val < win0_2.index t (1 : Fin 2) * 256 + 256
    omega

/-- The result array after the run is the distance table of the argument arrays. -/
theorem final (c : Dev nD) : (dats m 0 c).arrAt 2 cfg0.N
    = distTable (m ((c : Thread nD τ).loc main_arg0)) (m ((c : Thread nD τ).loc main_arg1)) :=
  (dats m 0 c).arrAt_eq_of_cover 2 (distTable (V m c main_arg0) (V m c main_arg1)) (fun t _ => flushed_eq m c t) covered

/-- The kernel's run: it terminates with the result array at the distance table and the arguments unchanged. -/
theorem run : θ_run defs (onTc (τ := τ) (main (F := Ideal))) ⟨m, fun _ => 0, ρ⟩ fun r => ∀ c : Dev nD,
      r.2.mem ((c : Thread nD τ).loc main_v0) = distTable (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.lean ====
/-
  The kernel and its reference compute the same table of Euclidean distances.

  For samples x [8192, 3072] and centers c [256, 3072] both programs produce, at entry (b, k),
  sqrt (max (|x_b|² + |c_k|² - 2 ⟨x_b, c_k⟩, ε)). The reference does it with whole-array operations: two row sums, one
  contraction of the arrays along their second axes, broadcasts, and the pointwise tail. The kernel does it one block of
  512 sample rows per grid point: row sums kept as columns, the centers' column re-laid as a row, a matrix product of
  the block with the transposed centers (its operands narrowed first, which changes nothing over the extended reals),
  and the same pointwise tail with the same two literals. Entry by entry the three sums are the same sums, so no law
  beyond reading each operation at an index is needed, and the inputs' finiteness is never used.

  The frames of the two kernel programs are the generated ones; the reference's frame is its generated run with the
  result forgotten; the idealization rewrote nothing, so there is nothing to preserve.
-/
import proofs.«167540_j44023414784041_1_alg».proof.Defs
import proofs.«167540_j44023414784041_1_alg».proof.Proof.Gen.Kernel
import proofs.«167540_j44023414784041_1_alg».proof.Proof.Gen.Kernel.Skeleton
import proofs.«167540_j44023414784041_1_alg».proof.Proof.Gen.Kernel.Launch
import proofs.«167540_j44023414784041_1_alg».proof.Proof.Gen.Kernel.Points
import proofs.«167540_j44023414784041_1_alg».proof.Proof.Gen.Kernel.Frame
import proofs.«167540_j44023414784041_1_alg».proof.Proof.Gen.KernelIdeal
import proofs.«167540_j44023414784041_1_alg».proof.Proof.Gen.KernelIdeal.Skeleton
import proofs.«167540_j44023414784041_1_alg».proof.Proof.Gen.KernelIdeal.Launch
import proofs.«167540_j44023414784041_1_alg».proof.Proof.Gen.KernelIdeal.Points
import proofs.«167540_j44023414784041_1_alg».proof.Proof.Gen.KernelIdeal.Frame
import proofs.«167540_j44023414784041_1_alg».proof.Proof.Gen.ReferenceIdeal
import proofs.«167540_j44023414784041_1_alg».proof.Proof.Gen.Pre_finite_inputs
import proofs.«167540_j44023414784041_1_alg».proof.Proof.Gen.KernelIdeal.Value
import proofs.«167540_j44023414784041_1_alg».proof.Proof.Gen.ReferenceIdeal.Run
import proofs.«167540_j44023414784041_1_alg».proof.Proof.Gen.ReferenceIdeal.Read
import proofs.«167540_j44023414784041_1_alg».proof.Proof.RefIsDist
import proofs.«167540_j44023414784041_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the samples and the centers, both programs end with the distance table of those two
    arrays in their result: the kernel block by block, the reference stage by stage. -/
theorem algebraic : Cert.algebraic_KernelIdeal_ReferenceIdeal := by
  intro m ρ m' ρ' _ hagree
  refine ⟨fun c => Cert.PairDist.distTable (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq_dist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
